-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024 : Shape := ⟨1, ![1024]⟩
abbrev S1024x256 : Shape := ⟨2, ![1024, 256]⟩
abbrev S256 : Shape := ⟨1, ![256]⟩
abbrev S256x1024 : Shape := ⟨2, ![256, 1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S256x1024 : S_.BroadcastsInDim S256x1024 (![] : Fin 0 → Fin S256x1024.rank)
  reducesTo_S256x1024_S_d0_1 : S256x1024.ReducesTo [0, 1] S_

variable [Facts]

def fn_part1 {F : FTy → Type} [FloatOps F] (main_arg4 : FVec F S256 .f32) (main_arg5 : FVec F S256x1024 .f32) (main_arg6 : FVec F S1024 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x1024 .f32 := Host.absf main_arg5
  let main_cst_8 : FVec F S_ .f32 := constant S_ .f32 0x7F800000#32
  let main_v25 : FVec F S256x1024 .f32 := broadcastInDim S256x1024 ![] bcast_S_S256x1024 main_cst_8
  let main_v26 : IVec S256x1024 1 := cmpf .olt main_v24 main_v25
  let main_c_9 : IVec S_ 1 := constantI S_ 1 1#1
  let main_v27 : IVec S_ 1 := (fun x v => Host.reduce IntOp.andi x v reducesTo_S256x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S8x4096x1024 .f32) (main_arg1 : FVec F S1024 .f32) (main_arg2 : FVec F S1024 .f32) (main_arg3 : FVec F S1024x256 .f32) (main_arg4 : FVec F S256 .f32) (main_arg5 : FVec F S256x1024 .f32) (main_arg6 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x256 .f32 := Host.absf main_arg3
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg4 main_arg5 main_arg6 main_v13 main_v16
-- ==== Kernel.lean ====
abbrev S8x4096x1024 : Shape := ⟨3, ![8, 4096, 1024]⟩
abbrev S1024 : Shape := ⟨1, ![1024]⟩
abbrev S1024x256 : Shape := ⟨2, ![1024, 256]⟩
abbrev S256 : Shape := ⟨1, ![256]⟩
abbrev S256x1024 : Shape := ⟨2, ![256, 1024]⟩
abbrev S32768x1024 : Shape := ⟨2, ![32768, 1024]⟩
abbrev S1x1024 : Shape := ⟨2, ![1, 1024]⟩
abbrev S1x256 : Shape := ⟨2, ![1, 256]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩

abbrev nBuf : Space → Nat
  | .hbm => 14
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024, .f32⟩
  | .hbm, ⟨3, _⟩ => ⟨S1024x256, .f32⟩
  | .hbm, ⟨4, _⟩ => ⟨S256, .f32⟩
  | .hbm, ⟨5, _⟩ => ⟨S256x1024, .f32⟩
  | .hbm, ⟨6, _⟩ => ⟨S1024, .f32⟩
  | .hbm, ⟨7, _⟩ => ⟨S32768x1024, .f32⟩
  | .hbm, ⟨8, _⟩ => ⟨S1x1024, .f32⟩
  | .hbm, ⟨9, _⟩ => ⟨S1x1024, .f32⟩
  | .hbm, ⟨10, _⟩ => ⟨S1x256, .f32⟩
  | .hbm, ⟨11, _⟩ => ⟨S1x1024, .f32⟩
  | .hbm, ⟨12, _⟩ => ⟨S32768x1024, .f32⟩
  | .hbm, ⟨13, _⟩ => ⟨S8x4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x256, .f32⟩
  | .local _ .vmem, ⟨5, _⟩ => ⟨S1x256, .f32⟩
  | .local _ .vmem, ⟨6, _⟩ => ⟨S256x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S8x4096x1024_S32768x1024 : S8x4096x1024.ShapeCasts S32768x1024
  shapeCasts_S1024_S1x1024 : S1024.ShapeCasts S1x1024
  shapeCasts_S256_S1x256 : S256.ShapeCasts S1x256
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S512x1024_S512 : S512x1024.Reduces [1] S512
  shapeCasts_S512_S512x1 : S512.ShapeCasts S512x1
  broadcasts_S512x1_S512x1024 : S512x1.Broadcasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x1024_S256x1024_0_0 : ∀ a, (![0, 0] : Fin 2 → Nat) a + S256x1024.size a ≤ S256x1024.size a
  h_S256x1024 : 0 < S256x1024.numel
  shapeCasts_S32768x1024_S8x4096x1024 : S32768x1024.ShapeCasts S8x4096x1024
  dot_S512x1024_S1024x256_S512x256_1_0_0_1_n_n_wf : DotDims.WF S512x1024 S1024x256 S512x256 [1] [0] [0] [1] [] []
  dot_S512x256_S256x1024_S512x1024_1_0_0_1_n_n_wf : DotDims.WF S512x256 S256x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x256.size a
  hwx0_3 : ∀ i : grid0.Coords, EltTy.bits .f32 = 32 ∨ (Rect.block (s := S1024x256) S1024x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S256x1024.size a
  hwx0_5 : ∀ i : grid0.Coords, EltTy.bits .f32 = 32 ∨ (Rect.block (s := S256x1024) S256x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S32768x1024.size a
  hwx0_7 : ∀ i : grid0.Coords, EltTy.bits .f32 = 32 ∨ (Rect.block (s := S32768x1024) S512x1024.size (cc0_transform_7 i) (hinb0_7 i)).WholeWords (EltTy.packing .f32)

variable [Facts₀]

def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S1024 : Shape := ⟨1, ![1024]⟩
abbrev S1024x256 : Shape := ⟨2, ![1024, 256]⟩
abbrev S256 : Shape := ⟨1, ![256]⟩
abbrev S256x1024 : Shape := ⟨2, ![256, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x256 : Shape := ⟨3, ![8, 4096, 256]⟩
abbrev S1x1x256 : Shape := ⟨3, ![1, 1, 256]⟩

abbrev nBuf : Space → Nat
  | .hbm => 62
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024, .f32⟩
  | .hbm, ⟨3, _⟩ => ⟨S1024x256, .f32⟩
  | .hbm, ⟨4, _⟩ => ⟨S256, .f32⟩
  | .hbm, ⟨5, _⟩ => ⟨S256x1024, .f32⟩
  | .hbm, ⟨6, _⟩ => ⟨S1024, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1024, .f32⟩
  | .hbm, ⟨14, _⟩ => ⟨S8x4096x1024, .f32⟩
  | .hbm, ⟨15, _⟩ => ⟨S8x4096x1024, .f32⟩
  | .hbm, ⟨16, _⟩ => ⟨S_, .f32⟩
  | .hbm, ⟨17, _⟩ => ⟨S8x4096, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S8x4096x1024, .f32⟩
  | .hbm, ⟨23, _⟩ => ⟨S8x4096x1024, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S8x4096x1, .f32⟩
  | .hbm, ⟨28, _⟩ => ⟨S8x4096x1024, .f32⟩
  | .hbm, ⟨29, _⟩ => ⟨S8x4096x1024, .f32⟩
  | .hbm, ⟨30, _⟩ => ⟨S1x1x1024, .f32⟩
  | .hbm, ⟨31, _⟩ => ⟨S8x4096x1024, .f32⟩
  | .hbm, ⟨32, _⟩ => ⟨S8x4096x1024, .f32⟩
  | .hbm, ⟨33, _⟩ => ⟨S1x1x1024, .f32⟩
  | .hbm, ⟨34, _⟩ => ⟨S8x4096x1024, .f32⟩
  | .hbm, ⟨35, _⟩ => ⟨S8x4096x1024, .f32⟩
  | .hbm, ⟨36, _⟩ => ⟨S8x4096x256, .f32⟩
  | .hbm, ⟨37, _⟩ => ⟨S1x1x256, .f32⟩
  | .hbm, ⟨38, _⟩ => ⟨S8x4096x256, .f32⟩
  | .hbm, ⟨39, _⟩ => ⟨S8x4096x256, .f32⟩
  | .hbm, ⟨40, _⟩ => ⟨S_, .f32⟩
  | .hbm, ⟨41, _⟩ => ⟨S8x4096x256, .f32⟩
  | .hbm, ⟨42, _⟩ => ⟨S8x4096x256, .f32⟩
  | .hbm, ⟨43, _⟩ => ⟨S8x4096x256, .f32⟩
  | .hbm, ⟨44, _⟩ => ⟨S8x4096x256, .f32⟩
  | .hbm, ⟨45, _⟩ => ⟨S_, .f32⟩
  | .hbm, ⟨46, _⟩ => ⟨S8x4096x256, .f32⟩
  | .hbm, ⟨47, _⟩ => ⟨S8x4096x256, .f32⟩
  | .hbm, ⟨48, _⟩ => ⟨S8x4096x256, .f32⟩
  | .hbm, ⟨49, _⟩ => ⟨S_, .f32⟩
  | .hbm, ⟨50, _⟩ => ⟨S8x4096x256, .f32⟩
  | .hbm, ⟨51, _⟩ => ⟨S8x4096x256, .f32⟩
  | .hbm, ⟨52, _⟩ => ⟨S8x4096x256, .f32⟩
  | .hbm, ⟨53, _⟩ => ⟨S_, .f32⟩
  | .hbm, ⟨54, _⟩ => ⟨S8x4096x256, .f32⟩
  | .hbm, ⟨55, _⟩ => ⟨S8x4096x256, .f32⟩
  | .hbm, ⟨56, _⟩ => ⟨S8x4096x256, .f32⟩
  | .hbm, ⟨57, _⟩ => ⟨S8x4096x1024, .f32⟩
  | .hbm, ⟨58, _⟩ => ⟨S1x1x1024, .f32⟩
  | .hbm, ⟨59, _⟩ => ⟨S8x4096x1024, .f32⟩
  | .hbm, ⟨60, _⟩ => ⟨S8x4096x1024, .f32⟩
  | .hbm, ⟨61, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]

class Facts₀ : Prop where
  reducesTo_S8x4096x1024_S8x4096_d2 : S8x4096x1024.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x1024_0_1_2 : S8x4096x1.BroadcastsInDim S8x4096x1024 (![0, 1, 2] : Fin 3 → Fin S8x4096x1024.rank)
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  bcast_S256_S1x1x256_2 : S256.BroadcastsInDim S1x1x256 (![2] : Fin 1 → Fin S1x1x256.rank)
  bcast_S1x1x256_S8x4096x256_0_1_2 : S1x1x256.BroadcastsInDim S8x4096x256 (![0, 1, 2] : Fin 3 → Fin S8x4096x256.rank)
  bcast_S_S8x4096x256 : S_.BroadcastsInDim S8x4096x256 (![] : Fin 0 → Fin S8x4096x256.rank)
  dot_S8x4096x1024_S1024x256_S8x4096x256_2_0_01_1_n_n_wf : DotDims.WF S8x4096x1024 S1024x256 S8x4096x256 [2] [0] [0, 1] [1] [] []
  dot_S8x4096x256_S256x1024_S8x4096x1024_2_0_01_1_n_n_wf : DotDims.WF S8x4096x256 S256x1024 S8x4096x1024 [2] [0] [0, 1] [1] [] []

variable [Facts₀]

def dot_S8x4096x1024_S1024x256_S8x4096x256_2_0_01_1_n_n : DotDims S8x4096x1024 S1024x256 S8x4096x256 where
  lhsContracting := [2]
  rhsContracting := [0]
  lhsNonContracting := [0, 1]
  rhsNonContracting := [1]
  lhsBatch := []
  rhsBatch := []
  wf := dot_S8x4096x1024_S1024x256_S8x4096x256_2_0_01_1_n_n_wf
def dot_S8x4096x256_S256x1024_S8x4096x1024_2_0_01_1_n_n : DotDims S8x4096x256 S256x1024 S8x4096x1024 where
  lhsContracting := [2]
  rhsContracting := [0]
  lhsNonContracting := [0, 1]
  rhsNonContracting := [1]
  lhsBatch := []
  rhsBatch := []
  wf := dot_S8x4096x256_S256x1024_S8x4096x1024_2_0_01_1_n_n_wf

class Facts : Prop extends Facts₀ where

variable [Facts]
-- ==== Proof.RowSpec.lean ====
/-
  The adapter on ONE row of the flattened activations, over the extended reals.

  For a row x of 1024 entries, scale γ and shift β of 1024 entries, a 1024 × 256 matrix Wd with bias bd,
  and a 256 × 1024 matrix Wu with bias bu:

    mean x = (Σ_k x_k) / 1024
    var x  = (Σ_k (x_k − mean x)²) / 1024
    h_k    = (x_k − mean x) · rsqrt (var x + ε) · γ_k + β_k              layer normalisation
    d_a    = Σ_k h_k · Wd[k, a] + bd_a                                    projection down to 256
    g_a    = (½ · d_a) · (1 + tanh (c · (d_a + κ · d_a³)))                the tanh form of GELU
    out_q  = (Σ_a g_a · Wu[a, q] + bu_q) + x_q                            projection up and the residual

  Every constant (1024, ε, ½, κ, c, 1) is the extended real its 32-bit pattern denotes; nothing below evaluates
  one. Each row of the result depends on that row of the activations only, which is why the rows may be computed
  in any grouping: 512 at a time, or all at once.
-/
import Idealize.ShloMosaic.PureOps.Ideal
import Idealize.ShloMosaic.Lib.ValueIdx

noncomputable section

namespace Cert.Adapter

open Idealize.ShloMosaic Idealize.ShloMosaic.ValueIdx

/-- The mean of a row: its sum divided by the pattern of 1024. -/
def mean (x : Fin 1024 → EReal) : EReal :=
  Ideal.div (∑ k : Fin 1024, x k) (Ideal.ofBits .f32 0x44800000#32)

/-- The (biased) variance of a row: the mean of the squared deviations. -/
def var (x : Fin 1024 → EReal) : EReal :=
  Ideal.div (∑ k : Fin 1024, (x k - mean x) * (x k - mean x)) (Ideal.ofBits .f32 0x44800000#32)

/-- Layer normalisation of a row, entry k. -/
def normed (x γ β : Fin 1024 → EReal) (k : Fin 1024) : EReal :=
  (x k - mean x) * Ideal.rsqrt (var x + Ideal.ofBits .f32 0x3727C5AC#32) * γ k + β k

/-- The projection down, entry a: the normalised row against column a of Wd, plus the bias. -/
def down (x γ β : Fin 1024 → EReal) (Wd : Fin 1024 → Fin 256 → EReal) (bd : Fin 256 → EReal) (a : Fin 256) : EReal :=
  (∑ k : Fin 1024, normed x γ β k * Wd k a) + bd a

/-- The tanh form of GELU, with the cube written d · (d · d). -/
def gelu (d : EReal) : EReal :=
  Ideal.ofBits .f32 0x3F000000#32 * d
    * (Ideal.ofBits .f32 0x3F800000#32
        + Ideal.tanh (Ideal.ofBits .f32 0x3F4C422A#32 * (d + Ideal.ofBits .f32 0x3D372713#32 * (d * (d * d)))))

/-- The cube written (d · d) · d gives the same value: multiplication of extended reals commutes. -/
theorem gelu_cube_left (d : EReal) :
    Ideal.ofBits .f32 0x3F000000#32 * d
      * (Ideal.ofBits .f32 0x3F800000#32
          + Ideal.tanh (Ideal.ofBits .f32 0x3F4C422A#32 * (d + Ideal.ofBits .f32 0x3D372713#32 * (d * d * d))))
      = gelu d := by
  unfold gelu
  rw [mul_comm (d * d) d]

/-- One row of the adapter's output, entry q. -/
def rowOut (x γ β : Fin 1024 → EReal) (Wd : Fin 1024 → Fin 256 → EReal) (bd : Fin 256 → EReal)
    (Wu : Fin 256 → Fin 1024 → EReal) (bu : Fin 1024 → EReal) (q : Fin 1024) : EReal :=
  (∑ a : Fin 256, gelu (down x γ β Wd bd a) * Wu a q) + bu q + x q

/-- The adapter on R rows held as an R × 1024 array, with the vectors γ, β, bd, bu held as one-row matrices:
    row r of the result is `rowOut` of row r. -/
def rows {R : Nat} (X : (⟨2, ![R, 1024]⟩ : Shape).Idx → EReal) (γ β : (⟨2, ![1, 1024]⟩ : Shape).Idx → EReal)
    (Wd : (⟨2, ![1024, 256]⟩ : Shape).Idx → EReal) (bd : (⟨2, ![1, 256]⟩ : Shape).Idx → EReal)
    (Wu : (⟨2, ![256, 1024]⟩ : Shape).Idx → EReal) (bu : (⟨2, ![1, 1024]⟩ : Shape).Idx → EReal) :
    (⟨2, ![R, 1024]⟩ : Shape).Idx → EReal :=
  fun i => rowOut (fun k => X (ix2 (i 0) k)) (fun k => γ (ix2 (0 : Fin 1) k)) (fun k => β (ix2 (0 : Fin 1) k))
    (fun k a => Wd (ix2 k a)) (fun a => bd (ix2 (0 : Fin 1) a)) (fun a q => Wu (ix2 a q))
    (fun q => bu (ix2 (0 : Fin 1) q)) (i 1)

/-- Row i of `rows` on one set of arrays is row i' of `rows` on another as soon as the two rows agree entry by entry,
    the parameter arrays agree, and the two entries asked for are the same: the other rows do not enter. -/
theorem rows_congr {R R' : Nat} {X : (⟨2, ![R, 1024]⟩ : Shape).Idx → EReal} {X' : (⟨2, ![R', 1024]⟩ : Shape).Idx → EReal}
    {γ γ' β β' : (⟨2, ![1, 1024]⟩ : Shape).Idx → EReal} {Wd Wd' : (⟨2, ![1024, 256]⟩ : Shape).Idx → EReal}
    {bd bd' : (⟨2, ![1, 256]⟩ : Shape).Idx → EReal} {Wu Wu' : (⟨2, ![256, 1024]⟩ : Shape).Idx → EReal}
    {bu bu' : (⟨2, ![1, 1024]⟩ : Shape).Idx → EReal}
    (i : (⟨2, ![R, 1024]⟩ : Shape).Idx) (i' : (⟨2, ![R', 1024]⟩ : Shape).Idx)
    (hX : ∀ k : Fin 1024, X (ix2 (i 0) k) = X' (ix2 (i' 0) k))
    (hγ : ∀ k : Fin 1024, γ (ix2 (0 : Fin 1) k) = γ' (ix2 (0 : Fin 1) k))
    (hβ : ∀ k : Fin 1024, β (ix2 (0 : Fin 1) k) = β' (ix2 (0 : Fin 1) k))
    (hWd : ∀ (k : Fin 1024) (a : Fin 256), Wd (ix2 k a) = Wd' (ix2 k a))
    (hbd : ∀ a : Fin 256, bd (ix2 (0 : Fin 1) a) = bd' (ix2 (0 : Fin 1) a))
    (hWu : ∀ (a : Fin 256) (q : Fin 1024), Wu (ix2 a q) = Wu' (ix2 a q))
    (hbu : ∀ q : Fin 1024, bu (ix2 (0 : Fin 1) q) = bu' (ix2 (0 : Fin 1) q))
    (hq : (i 1).val = (i' 1).val) :
    rows X γ β Wd bd Wu bu i = rows X' γ' β' Wd' bd' Wu' bu' i' := by
  have e : (i 1 : Fin 1024) = i' 1 := Fin.ext hq
  unfold rows
  rw [funext hX, funext hγ, funext hβ, funext fun k => funext (hWd k), funext hbd, funext fun a => funext (hWu a),
    funext hbu, e]

/-- The adapter on a batch of 8 sequences of 4096 rows, the vectors held as vectors: the result at (b, s, ·) is
    `rowOut` of the row at (b, s, ·). -/
def batch (X : (⟨3, ![8, 4096, 1024]⟩ : Shape).Idx → EReal) (γ β : (⟨1, ![1024]⟩ : Shape).Idx → EReal)
    (Wd : (⟨2, ![1024, 256]⟩ : Shape).Idx → EReal) (bd : (⟨1, ![256]⟩ : Shape).Idx → EReal)
    (Wu : (⟨2, ![256, 1024]⟩ : Shape).Idx → EReal) (bu : (⟨1, ![1024]⟩ : Shape).Idx → EReal) :
    (⟨3, ![8, 4096, 1024]⟩ : Shape).Idx → EReal :=
  fun i => rowOut (fun k => X (ix3 (i 0) (i 1) k)) (fun k => γ (ix1 k)) (fun k => β (ix1 k))
    (fun k a => Wd (ix2 k a)) (fun a => bd (ix1 a)) (fun a q => Wu (ix2 a q)) (fun q => bu (ix1 q)) (i 2)

end Cert.Adapter

end
-- ==== Proof.ColumnLayout.lean ====
/-
  A vector of row statistics kept as a column: an [a] vector cast to [a, 1] reads at (p, ·) the vector at p, and
  an [a, 1] column broadcast to [a, b] reads at (p, c) the column at p. These are the two layout steps between a
  row reduction and its use against every entry of the row.
-/
import Idealize.ShloMosaic.Lib.Pipeline.Value
import Idealize.ShloMosaic.Lib.ValueIdx

namespace Cert.Adapter

open Idealize.ShloMosaic Idealize.ShloMosaic.ValueIdx

variable {α : Type}

/-- An `[a]` array cast to `[a, 1]` reads, at `(p, u)`, the operand at `p`: row-major position p · 1 + u = p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Adapter
-- ==== Proof.BodyValue.lean ====
/-
  What the kernel body stores, read entry by entry.

  On a block of 512 rows the body stores, at (p, q), the adapter's output for row p at entry q (`Cert.Adapter.rowOut`):
  the two row reductions are sums over the 1024 entries of row p, the two matrix products are sums over their
  contracted index, the changes of float format are identities on the extended reals, and the one-row operands
  (γ, β and the two biases) are read at their single row.
-/
import proofs.«143193_j35880156791633_1_alg».proof.Proof.Gen.KernelIdeal.Skeleton
import proofs.«143193_j35880156791633_1_alg».proof.Proof.RowSpec
import proofs.«143193_j35880156791633_1_alg».proof.Proof.ColumnLayout
import Idealize.ShloMosaic.Lib.ValueLayout
import Idealize.ShloMosaic.Lib.Pipeline.Value
import Idealize.ShloMosaic.PureOps.Ideal.Laws

noncomputable section

namespace Cert.KernelIdeal.BodyValue

open Idealize.ShloMosaic Idealize.ShloMosaic.ValueIdx Cert.KernelIdeal Cert.KernelIdeal.Gen Cert.Adapter

/-! ## Row sums -/

/-- Row p of a 512 × 1024 block with the column k put back is the entry (p, k). -/
theorem lift_row (p : Fin 512) (k : Fin 1024) :
    (reduces_S512x1024_S512 : S512x1024.Reduces [1] S512).lift (ix1 p) k = ix2 p k :=
  funext fun a => Fin.ext (by match a with | ⟨0, _⟩ => rfl | ⟨1, _⟩ => rfl)

/-- The lane sum of a block, at row p, is the sum of the 1024 entries of row p. -/
theorem rowsum_apply (v : FVec Ideal S512x1024 .f32) (hφ : FKind.Formats .f32)
    (hacc : (0x00000000#32 : BitVec 32) = 0x00000000#32) (p : Fin 512) :
    multiReduction .add [1] S512 v 0x00000000#32 reduces_S512x1024_S512 hφ hacc (ix1 p)
      = ∑ k : Fin 1024, v (ix2 p k) := by
  refine (Ideal.multiReduction_add_single v 0x00000000#32 reduces_S512x1024_S512 hφ hacc (ix1 p)).trans ?_
  exact Finset.sum_congr rfl fun k _ => congrArg v (lift_row p k)

/-! ## The two matrix products -/

theorem lhs_down_0 (i : S512x256.Idx) (q : dot_S512x1024_S1024x256_S512x256_1_0_0_1_n_n.contr.Idx) :
    (dot_S512x1024_S1024x256_S512x256_1_0_0_1_n_n.lhsIdx i q 0).val = (i 0).val := by
  unfold DotDims.lhsIdx
  rw [dif_neg (show ¬(0 : Fin S512x1024.rank) ∈ dot_S512x1024_S1024x256_S512x256_1_0_0_1_n_n.lhsBatch by decide), dif_pos (show (0 : Fin S512x1024.rank) ∈ dot_S512x1024_S1024x256_S512x256_1_0_0_1_n_n.lhsNonContracting by decide)]
  rfl
theorem lhs_down_1 (i : S512x256.Idx) (q : dot_S512x1024_S1024x256_S512x256_1_0_0_1_n_n.contr.Idx) :
    (dot_S512x1024_S1024x256_S512x256_1_0_0_1_n_n.lhsIdx i q 1).val = (q ⟨0, by decide⟩).val :=
  dot_S512x1024_S1024x256_S512x256_1_0_0_1_n_n.lhsIdx_val_of_single rfl i q
theorem rhs_down_0 (i : S512x256.Idx) (q : dot_S512x1024_S1024x256_S512x256_1_0_0_1_n_n.contr.Idx) :
    (dot_S512x1024_S1024x256_S512x256_1_0_0_1_n_n.rhsIdx i q 0).val = (q ⟨0, by decide⟩).val :=
  dot_S512x1024_S1024x256_S512x256_1_0_0_1_n_n.rhsIdx_val_of_single rfl i q
theorem rhs_down_1 (i : S512x256.Idx) (q : dot_S512x1024_S1024x256_S512x256_1_0_0_1_n_n.contr.Idx) :
    (dot_S512x1024_S1024x256_S512x256_1_0_0_1_n_n.rhsIdx i q 1).val = (i 1).val := by
  unfold DotDims.rhsIdx
  rw [dif_neg (show ¬(1 : Fin S1024x256.rank) ∈ dot_S512x1024_S1024x256_S512x256_1_0_0_1_n_n.rhsBatch by decide), dif_pos (show (1 : Fin S1024x256.rank) ∈ dot_S512x1024_S1024x256_S512x256_1_0_0_1_n_n.rhsNonContracting by decide)]
  rfl

/-- The product down, into a zero accumulator, at (p, a): row p of the left operand against column a of the right. -/
theorem matmul_down_apply (l : FVec Ideal S512x1024 .bf16) (r : FVec Ideal S1024x256 .bf16) (p : Fin 512) (a : Fin 256) :
    FloatOps.matmul dot_S512x1024_S1024x256_S512x256_1_0_0_1_n_n none l r (constant S512x256 .f32 0x00000000#32) (ix2 p a)
      = ∑ k : Fin 1024, l (ix2 p k) * r (ix2 k a) := by
  rw [Ideal.matmul_constant_zero_apply, ← Equiv.sum_comp (ValueIdx.contrEquiv1 dot_S512x1024_S1024x256_S512x256_1_0_0_1_n_n 1024 rfl rfl).symm]
  refine Finset.sum_congr rfl fun k _ => ?_
  have hk := ValueIdx.contrEquiv1_symm_val dot_S512x1024_S1024x256_S512x256_1_0_0_1_n_n 1024 rfl rfl k
  have el : dot_S512x1024_S1024x256_S512x256_1_0_0_1_n_n.lhsIdx (ix2 p a) ((ValueIdx.contrEquiv1 dot_S512x1024_S1024x256_S512x256_1_0_0_1_n_n 1024 rfl rfl).symm k) = ix2 p k := funext fun ax => Fin.ext (by
    match ax with
    | ⟨0, _⟩ => exact lhs_down_0 _ _
    | ⟨1, _⟩ => exact (lhs_down_1 _ _).trans hk)
  have er : dot_S512x1024_S1024x256_S512x256_1_0_0_1_n_n.rhsIdx (ix2 p a) ((ValueIdx.contrEquiv1 dot_S512x1024_S1024x256_S512x256_1_0_0_1_n_n 1024 rfl rfl).symm k) = ix2 k a := funext fun ax => Fin.ext (by
    match ax with
    | ⟨0, _⟩ => exact (rhs_down_0 _ _).trans hk
    | ⟨1, _⟩ => exact rhs_down_1 _ _)
  rw [el, er]

theorem lhs_up_0 (i : S512x1024.Idx) (q : dot_S512x256_S256x1024_S512x1024_1_0_0_1_n_n.contr.Idx) :
    (dot_S512x256_S256x1024_S512x1024_1_0_0_1_n_n.lhsIdx i q 0).val = (i 0).val := by
  unfold DotDims.lhsIdx
  rw [dif_neg (show ¬(0 : Fin S512x256.rank) ∈ dot_S512x256_S256x1024_S512x1024_1_0_0_1_n_n.lhsBatch by decide), dif_pos (show (0 : Fin S512x256.rank) ∈ dot_S512x256_S256x1024_S512x1024_1_0_0_1_n_n.lhsNonContracting by decide)]
  rfl
theorem lhs_up_1 (i : S512x1024.Idx) (q : dot_S512x256_S256x1024_S512x1024_1_0_0_1_n_n.contr.Idx) :
    (dot_S512x256_S256x1024_S512x1024_1_0_0_1_n_n.lhsIdx i q 1).val = (q ⟨0, by decide⟩).val :=
  dot_S512x256_S256x1024_S512x1024_1_0_0_1_n_n.lhsIdx_val_of_single rfl i q
theorem rhs_up_0 (i : S512x1024.Idx) (q : dot_S512x256_S256x1024_S512x1024_1_0_0_1_n_n.contr.Idx) :
    (dot_S512x256_S256x1024_S512x1024_1_0_0_1_n_n.rhsIdx i q 0).val = (q ⟨0, by decide⟩).val :=
  dot_S512x256_S256x1024_S512x1024_1_0_0_1_n_n.rhsIdx_val_of_single rfl i q
theorem rhs_up_1 (i : S512x1024.Idx) (q : dot_S512x256_S256x1024_S512x1024_1_0_0_1_n_n.contr.Idx) :
    (dot_S512x256_S256x1024_S512x1024_1_0_0_1_n_n.rhsIdx i q 1).val = (i 1).val := by
  unfold DotDims.rhsIdx
  rw [dif_neg (show ¬(1 : Fin S256x1024.rank) ∈ dot_S512x256_S256x1024_S512x1024_1_0_0_1_n_n.rhsBatch by decide), dif_pos (show (1 : Fin S256x1024.rank) ∈ dot_S512x256_S256x1024_S512x1024_1_0_0_1_n_n.rhsNonContracting by decide)]
  rfl

/-- The product up, into a zero accumulator, at (p, q): row p of the left operand against column q of the right. -/
theorem matmul_up_apply (l : FVec Ideal S512x256 .bf16) (r : FVec Ideal S256x1024 .bf16) (p : Fin 512) (q : Fin 1024) :
    FloatOps.matmul dot_S512x256_S256x1024_S512x1024_1_0_0_1_n_n none l r (constant S512x1024 .f32 0x00000000#32) (ix2 p q)
      = ∑ a : Fin 256, l (ix2 p a) * r (ix2 a q) := by
  rw [Ideal.matmul_constant_zero_apply, ← Equiv.sum_comp (ValueIdx.contrEquiv1 dot_S512x256_S256x1024_S512x1024_1_0_0_1_n_n 256 rfl rfl).symm]
  refine Finset.sum_congr rfl fun k _ => ?_
  have hk := ValueIdx.contrEquiv1_symm_val dot_S512x256_S256x1024_S512x1024_1_0_0_1_n_n 256 rfl rfl k
  have el : dot_S512x256_S256x1024_S512x1024_1_0_0_1_n_n.lhsIdx (ix2 p q) ((ValueIdx.contrEquiv1 dot_S512x256_S256x1024_S512x1024_1_0_0_1_n_n 256 rfl rfl).symm k) = ix2 p k := funext fun ax => Fin.ext (by
    match ax with
    | ⟨0, _⟩ => exact lhs_up_0 _ _
    | ⟨1, _⟩ => exact (lhs_up_1 _ _).trans hk)
  have er : dot_S512x256_S256x1024_S512x1024_1_0_0_1_n_n.rhsIdx (ix2 p q) ((ValueIdx.contrEquiv1 dot_S512x256_S256x1024_S512x1024_1_0_0_1_n_n 256 rfl rfl).symm k) = ix2 k q := funext fun ax => Fin.ext (by
    match ax with
    | ⟨0, _⟩ => exact (rhs_up_0 _ _).trans hk
    | ⟨1, _⟩ => exact rhs_up_1 _ _)
  rw [el, er]

/-! ## The body's arithmetic, entry by entry -/

theorem rsqrt_apply {s : Shape} (v : FVec Ideal s .f32) (i : s.Idx) : rsqrt v i = Ideal.rsqrt (v i) := rfl
theorem tanh_apply {s : Shape} (v : FVec Ideal s .f32) (i : s.Idx) : tanh v i = Ideal.tanh (v i) := rfl
theorem scalar_ofBits (b : BitVec 32) : Scalar.ofBits (F := Ideal) .f32 b = Ideal.ofBits .f32 b := rfl

/-- The value the body calls %35, at (p, a): the projection down of row p, entry a. The row's mean and variance are
    the two lane sums over 1024; the normalised row meets column a of Wd in the first matrix product. -/
theorem pay3_apply (x0 : FVec Ideal S512x1024 .f32) (x1 x2 : FVec Ideal S1x1024 .f32) (x3 : FVec Ideal S1024x256 .f32)
    (x4 : FVec Ideal S1x256 .f32) (p : Fin 512) (a : Fin 256) :
    k0_pay3 (F := Ideal) x0 x1 x2 x3 x4 (ix2 p a)
      = down (fun k => x0 (ix2 p k)) (fun k => x1 (ix2 (0 : Fin 1) k)) (fun k => x2 (ix2 (0 : Fin 1) k))
          (fun k a => x3 (ix2 k a)) (fun a => x4 (ix2 (0 : Fin 1) a)) a := by
  unfold k0_pay3 k0_pay2
  simp only [shapeCast_self, addf_apply, mulf_apply, subf_apply, divf_apply, truncf_apply, broadcast_apply,
    matmul_down_apply, shapeCast_a_a1_apply, broadcastTo_a1_ab_apply, broadcastTo_1b_ab_apply,
    rsqrt_apply, scalar_ofBits]
  -- the row's own sum, then the sum of its squared deviations; inside the latter the row's own sum once more
  rw [rowsum_apply, rowsum_apply]
  simp only [mulf_apply, subf_apply, divf_apply, broadcast_apply, shapeCast_a_a1_apply, broadcastTo_a1_ab_apply,
    scalar_ofBits]
  rw [rowsum_apply]
  simp only [down, normed, var, mean]

/-- The stored value at (p, q) from the values the body computes it from: the GELU factor of row p against column q
    of Wu in the second matrix product, plus the bias, plus the block's own entry (the residual). -/
theorem pay1_apply (v1 : FVec Ideal S512x1024 .f32) (v35 v37 v39 v40 : FVec Ideal S512x256 .f32)
    (v50 : FVec Ideal S256x1024 .f32) (v53 : FVec Ideal S1x1024 .f32) (p : Fin 512) (q : Fin 1024) :
    k0_pay1 (F := Ideal) v1 v35 v37 v39 v40 v50 v53 (ix2 p q)
      = (∑ a : Fin 256, v37 (ix2 p a)
            * (Ideal.ofBits .f32 0x3F800000#32
                + Ideal.tanh (Ideal.ofBits .f32 0x3F4C422A#32 * (v35 (ix2 p a) + v40 (ix2 p a) * v39 (ix2 p a))))
            * v50 (ix2 a q))
        + v53 (ix2 (0 : Fin 1) q) + v1 (ix2 p q) := by
  unfold k0_pay1
  simp only [shapeCast_self, addf_apply, mulf_apply, truncf_apply, broadcast_apply, matmul_up_apply,
    broadcastTo_1b_ab_apply, tanh_apply, scalar_ofBits]

/-- WHAT THE BODY STORES at (p, q) of its output block: the adapter's output for row p of the input block, entry q. -/
theorem stored_apply (x0 : FVec Ideal S512x1024 .f32) (x1 x2 : FVec Ideal S1x1024 .f32) (x3 : FVec Ideal S1024x256 .f32)
    (x4 : FVec Ideal S1x256 .f32) (x5 : FVec Ideal S256x1024 .f32) (x6 : FVec Ideal S1x1024 .f32) (p : Fin 512) (q : Fin 1024) :
    k0_pay1 (F := Ideal) (k0_pay2 x0) (k0_pay3 x0 x1 x2 x3 x4) (k0_pay4 x0 x1 x2 x3 x4) (k0_pay5 x0 x1 x2 x3 x4)
        (k0_pay6 (F := Ideal)) x5 x6 (ix2 p q)
      = rowOut (fun k => x0 (ix2 p k)) (fun k => x1 (ix2 (0 : Fin 1) k)) (fun k => x2 (ix2 (0 : Fin 1) k))
          (fun k a => x3 (ix2 k a)) (fun a => x4 (ix2 (0 : Fin 1) a)) (fun a q => x5 (ix2 a q))
          (fun q => x6 (ix2 (0 : Fin 1) q)) q := by
  rw [pay1_apply]
  unfold k0_pay4 k0_pay5 k0_pay6 k0_pay2
  simp only [shapeCast_self, mulf_apply, broadcast_apply, scalar_ofBits, pay3_apply, rowOut, gelu]

end Cert.KernelIdeal.BodyValue

end
-- ==== Proof.ArrayValue.lean ====
/-
  The kernel's output array after the region.

  The grid has 64 points. Point t reads rows 512·t … 512·t + 511 of the flattened activations, reads the six
  parameter arrays whole, and writes rows 512·t … 512·t + 511 of the output. Each output row depends on its own input
  row only (`Cert.Adapter.rows`), so the block point t writes is block t of the adapter applied to ALL 32768 rows;
  the 64 blocks tile the output, which therefore ends holding exactly that.
-/
import proofs.«143193_j35880156791633_1_alg».proof.Proof.Gen.KernelIdeal.Frame
import proofs.«143193_j35880156791633_1_alg».proof.Proof.BodyValue
import Idealize.ShloMosaic.Lib.Pipeline.Value

set_option maxRecDepth 16384

noncomputable section

namespace Cert.KernelIdeal.ArrayValue

open Idealize.ShloMosaic Idealize.ShloMosaic.TcCoe Idealize.ShloMosaic.ValueIdx Idealize.SL.Sem
open Cert.KernelIdeal Cert.KernelIdeal.Gen Cert.Adapter
open Idealize.ShloMosaic.Pipeline (Dat)

variable (m : (ℓ : Loc nD τ sig) → Buf (Elt Ideal) ℓ) (ρ : Dev nD → PrngReg)

/-! ## What the body leaves in its output block -/

theorem offsets_zero : (![0, 0] : Fin 2 → Nat) = fun _ => 0 := funext fun a => by fin_cases a <;> rfl

/-- The body's one store covers its block, and what it stores is the adapter on the block's 512 rows. -/
theorem stored_rows (x0 : Vec Ideal S512x1024 .f32) (x1 x2 : Vec Ideal S1x1024 .f32) (x3 : Vec Ideal S1024x256 .f32)
    (x4 : Vec Ideal S1x256 .f32) (x5 : Vec Ideal S256x1024 .f32) (x6 : Vec Ideal S1x1024 .f32) :
    out0_7 x0 x1 x2 x3 x4 x5 x6 = rows (R := 512) x0 x1 x2 x3 x4 x5 x6 := by
  unfold out0_7
  rw [View.canon_unit_zero offsets_zero]
  simp only [View.ld_unit_zero (S := S512x1024) offsets_zero, View.ld_unit_zero (S := S1x1024) offsets_zero,
    View.ld_unit_zero (S := S1024x256) offsets_zero, View.ld_unit_zero (S := S1x256) offsets_zero,
    View.ld_unit_zero (S := S256x1024) offsets_zero]
  funext j
  obtain ⟨p, q, rfl⟩ : ∃ (p : Fin 512) (q : Fin 1024), j = ix2 p q := ⟨j 0, j 1, eq_ix2 j⟩
  exact BodyValue.stored_apply x0 x1 x2 x3 x4 x5 x6 p q

/-! ## The arrays as the region finds them, and the blocks a point reads -/

/-- The flattened activations (32768 rows) and the six parameter arrays, as the region finds them. -/
abbrev aX (c : Dev nD) : FVec Ideal S32768x1024 .f32 := V m c main_v0
abbrev aG (c : Dev nD) : FVec Ideal S1x1024 .f32 := V m c main_v1
abbrev aB (c : Dev nD) : FVec Ideal S1x1024 .f32 := V m c main_v2
abbrev aWd (c : Dev nD) : FVec Ideal S1024x256 .f32 := V m c main_arg3
abbrev aBd (c : Dev nD) : FVec Ideal S1x256 .f32 := V m c main_v3
abbrev aWu (c : Dev nD) : FVec Ideal S256x1024 .f32 := V m c main_arg5
abbrev aBu (c : Dev nD) : FVec Ideal S1x1024 .f32 := V m c main_v4

/-- The blocks point t reads. -/
abbrev bX (c : Dev nD) (t : Fin cfg0.N) : FVec Ideal S512x1024 .f32 := iblk m c 0 t
abbrev bG (c : Dev nD) (t : Fin cfg0.N) : FVec Ideal S1x1024 .f32 := iblk m c 1 t
abbrev bB (c : Dev nD) (t : Fin cfg0.N) : FVec Ideal S1x1024 .f32 := iblk m c 2 t
abbrev bWd (c : Dev nD) (t : Fin cfg0.N) : FVec Ideal S1024x256 .f32 := iblk m c 3 t
abbrev bBd (c : Dev nD) (t : Fin cfg0.N) : FVec Ideal S1x256 .f32 := iblk m c 4 t
abbrev bWu (c : Dev nD) (t : Fin cfg0.N) : FVec Ideal S256x1024 .f32 := iblk m c 5 t
abbrev bBu (c : Dev nD) (t : Fin cfg0.N) : FVec Ideal S1x1024 .f32 := iblk m c 6 t

/-- The adapter applied to all 32768 rows of the flattened activations. -/
def whole (c : Dev nD) : FVec Ideal S32768x1024 .f32 :=
  rows (R := 32768) (aX m c) (aG m c) (aB m c) (aWd m c) (aBd m c) (aWu m c) (aBu m c)

/-- The printed index maps over the grid: the activations' window and the output's sit at block row t, column 0. -/
theorem idx_rows : ∀ t : Fin cfg0.N, win0_0.index t (0 : Fin 2) = t.val ∧ win0_0.index t (1 : Fin 2) = 0
    ∧ win0_7.index t (0 : Fin 2) = t.val ∧ win0_7.index t (1 : Fin 2) = 0 :=
  (by decide +kernel : ∀ t : Fin grid0.N, _)

/-- The parameter windows sit at block (0, 0) at every point. -/
theorem idx_params : ∀ t : Fin cfg0.N, win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Row p of the block point t reads is row 512·t + p of the flattened activations. -/
theorem readX (c : Dev nD) (t : Fin cfg0.N) (p : Fin 512) (k : Fin 1024) (r : Fin 32768) (hr : r.val = t.val * 512 + p.val) :
    bX m c t (ix2 p k) = aX m c (ix2 r k) := by
  show V m c main_v0 (((cfg0.win 0).blk t).view.emb (ix2 p k)) = V m c main_v0 (ix2 r k)
  obtain ⟨e0, e1, -⟩ := idx_rows t
  refine congrArg (V m c main_v0) (funext fun a => Fin.ext ?_)
  match a with
  | ⟨0, _⟩ => show win0_0.index t (0 : Fin 2) * 512 + 1 * p.val = r.val; omega
  | ⟨1, _⟩ => show win0_0.index t (1 : Fin 2) * 1024 + 1 * k.val = k.val; omega

theorem readG (c : Dev nD) (t : Fin cfg0.N) (k : Fin 1024) : bG m c t (ix2 (0 : Fin 1) k) = aG m c (ix2 (0 : Fin 1) k) := by
  show V m c main_v1 (((cfg0.win 1).blk t).view.emb (ix2 (0 : Fin 1) k)) = V m c main_v1 (ix2 (0 : Fin 1) k)
  obtain ⟨e0, e1, -⟩ := idx_params t
  refine congrArg (V m c main_v1) (funext fun a => Fin.ext ?_)
  match a with
  | ⟨0, _⟩ => show win0_1.index t (0 : Fin 2) * 1 + 1 * 0 = 0; omega
  | ⟨1, _⟩ => show win0_1.index t (1 : Fin 2) * 1024 + 1 * k.val = k.val; omega

theorem readB (c : Dev nD) (t : Fin cfg0.N) (k : Fin 1024) : bB m c t (ix2 (0 : Fin 1) k) = aB m c (ix2 (0 : Fin 1) k) := by
  show V m c main_v2 (((cfg0.win 2).blk t).view.emb (ix2 (0 : Fin 1) k)) = V m c main_v2 (ix2 (0 : Fin 1) k)
  obtain ⟨-, -, e0, e1, -⟩ := idx_params t
  refine congrArg (V m c main_v2) (funext fun a => Fin.ext ?_)
  match a with
  | ⟨0, _⟩ => show win0_2.index t (0 : Fin 2) * 1 + 1 * 0 = 0; omega
  | ⟨1, _⟩ => show win0_2.index t (1 : Fin 2) * 1024 + 1 * k.val = k.val; omega

theorem readWd (c : Dev nD) (t : Fin cfg0.N) (k : Fin 1024) (a : Fin 256) : bWd m c t (ix2 k a) = aWd m c (ix2 k a) := by
  show V m c main_arg3 (((cfg0.win 3).blk t).view.emb (ix2 k a)) = V m c main_arg3 (ix2 k a)
  obtain ⟨-, -, -, -, e0, e1, -⟩ := idx_params t
  refine congrArg (V m c main_arg3) (funext fun ax => Fin.ext ?_)
  match ax with
  | ⟨0, _⟩ => show win0_3.index t (0 : Fin 2) * 1024 + 1 * k.val = k.val; omega
  | ⟨1, _⟩ => show win0_3.index t (1 : Fin 2) * 256 + 1 * a.val = a.val; omega

theorem readBd (c : Dev nD) (t : Fin cfg0.N) (a : Fin 256) : bBd m c t (ix2 (0 : Fin 1) a) = aBd m c (ix2 (0 : Fin 1) a) := by
  show V m c main_v3 (((cfg0.win 4).blk t).view.emb (ix2 (0 : Fin 1) a)) = V m c main_v3 (ix2 (0 : Fin 1) a)
  obtain ⟨-, -, -, -, -, -, e0, e1, -⟩ := idx_params t
  refine congrArg (V m c main_v3) (funext fun ax => Fin.ext ?_)
  match ax with
  | ⟨0, _⟩ => show win0_4.index t (0 : Fin 2) * 1 + 1 * 0 = 0; omega
  | ⟨1, _⟩ => show win0_4.index t (1 : Fin 2) * 256 + 1 * a.val = a.val; omega

theorem readWu (c : Dev nD) (t : Fin cfg0.N) (a : Fin 256) (q : Fin 1024) : bWu m c t (ix2 a q) = aWu m c (ix2 a q) := by
  show V m c main_arg5 (((cfg0.win 5).blk t).view.emb (ix2 a q)) = V m c main_arg5 (ix2 a q)
  obtain ⟨-, -, -, -, -, -, -, -, e0, e1, -⟩ := idx_params t
  refine congrArg (V m c main_arg5) (funext fun ax => Fin.ext ?_)
  match ax with
  | ⟨0, _⟩ => show win0_5.index t (0 : Fin 2) * 256 + 1 * a.val = a.val; omega
  | ⟨1, _⟩ => show win0_5.index t (1 : Fin 2) * 1024 + 1 * q.val = q.val; omega

theorem readBu (c : Dev nD) (t : Fin cfg0.N) (q : Fin 1024) : bBu m c t (ix2 (0 : Fin 1) q) = aBu m c (ix2 (0 : Fin 1) q) := by
  show V m c main_v4 (((cfg0.win 6).blk t).view.emb (ix2 (0 : Fin 1) q)) = V m c main_v4 (ix2 (0 : Fin 1) q)
  obtain ⟨-, -, -, -, -, -, -, -, -, -, e0, e1⟩ := idx_params t
  refine congrArg (V m c main_v4) (funext fun ax => Fin.ext ?_)
  match ax with
  | ⟨0, _⟩ => show win0_6.index t (0 : Fin 2) * 1 + 1 * 0 = 0; omega
  | ⟨1, _⟩ => show win0_6.index t (1 : Fin 2) * 1024 + 1 * q.val = q.val; omega

/-! ## From blocks to the array -/

/-- WHAT POINT t WRITES BACK is block t of the adapter applied to all 32768 rows: row p of the block it reads is row
    512·t + p of the activations, and the output block sits at the same rows. -/
theorem flushed_eq (c : Dev nD) (t : Fin cfg0.N) :
    (dats m 0 c).flushed 7 t = ((cfg0.win 7).blk t).view.read (Elt Ideal) (whole m c) := by
  show (cfg0.win 7).cut (grid0.coords t) ((dats m 0 c).after 7 t) = _
  rw [after0_7, stored_rows]
  obtain ⟨-, -, e0, e1⟩ := idx_rows t
  funext y
  show rows (R := 512) (bX m c t) (bG m c t) (bB m c t) (bWd m c t) (bBd m c t) (bWu m c t) (bBu m c t)
      ((cfg0.win 7).xinj (grid0.coords t) y) = whole m c (((cfg0.win 7).blk t).view.emb y)
  unfold whole
  refine rows_congr _ _ (fun k => readX m c t _ k _ ?_) (readG m c t) (readB m c t) (readWd m c t) (readBd m c t)
    (readWu m c t) (readBu m c t) ?_
  · show win0_7.index t (0 : Fin 2) * 512 + 1 * (y 0).val = t.val * 512 + (y 0).val; omega
  · show (y 1).val = win0_7.index t (1 : Fin 2) * 1024 + 1 * (y 1).val; omega

/-- An index of the output array is in point t's block iff each coordinate is in the block's range on its axis. -/
theorem mem_blk (t : Fin cfg0.N) (i : S32768x1024.Idx) :
    i ∈ ((cfg0.win 7).blk t).view.set ↔ ∀ a : Fin 2, win0_7.index t a * S512x1024.size a ≤ (i a).val
      ∧ (i a).val < win0_7.index t a * S512x1024.size a + S512x1024.size a := by
  show i ∈ ((View.whole main_v5).slice (win0_7.rect t)).set ↔ _
  rw [View.set_slice_whole, Rect.mem_set_unit]
  exact Iff.rfl

/-- The 64 blocks tile the output: row r lies in the block of point r / 512. -/
theorem cover (i : S32768x1024.Idx) :
    ∃ t : Fin cfg0.N, (cfg0.win 7).flush t = true ∧ i ∈ ((cfg0.win 7).blk t).view.set := by
  have hi0 : (i 0).val < 32768 := (i 0).isLt
  have hi1 : (i 1).val < 1024 := (i 1).isLt
  have hN : grid0.N = 64 := N_0
  obtain ⟨t, ht⟩ : ∃ t : Fin cfg0.N, t.val = (i 0).val / 512 :=
    ⟨⟨(i 0).val / 512, by show (i 0).val / 512 < grid0.N; omega⟩, rfl⟩
  obtain ⟨-, -, e0, e1⟩ := idx_rows t
  refine ⟨t, flush0_7 t, ?_⟩
  rw [mem_blk]
  intro a
  match a with
  | ⟨0, _⟩ =>
    show win0_7.index t (0 : Fin 2) * 512 ≤ (i 0).val ∧ (i 0).val < win0_7.index t (0 : Fin 2) * 512 + 512
    omega
  | ⟨1, _⟩ =>
    show win0_7.index t (1 : Fin 2) * 1024 ≤ (i 1).val ∧ (i 1).val < win0_7.index t (1 : Fin 2) * 1024 + 1024
    omega

/-- THE OUTPUT ARRAY after the region: the adapter applied to all 32768 rows. -/
theorem final (c : Dev nD) : (dats m 0 c).arrAt 7 cfg0.N = whole m c :=
  (dats m 0 c).arrAt_eq_of_cover 7 (whole m c) (fun t _ => flushed_eq m c t) cover

end Cert.KernelIdeal.ArrayValue

end
-- ==== Proof.KernelRun.lean ====
/-
  The kernel program's result, from its arguments.

  Before the region the activations are flattened from [8, 4096, 1024] to [32768, 1024] and the four vectors are
  given a leading unit axis; after it the output is unflattened. A reshape keeps every number at its row-major
  position, so row 4096·b + s of the flattened array is row (b, s) of the batch, and the program's result at
  (b, s, ·) is the adapter's output for that row: `Cert.Adapter.batch` of the arguments.
-/
import proofs.«143193_j35880156791633_1_alg».proof.Proof.ArrayValue
import Idealize.ShloMosaic.Lib.StableHlo.Run
import Idealize.ShloMosaic.Lib.ValueLayout

set_option maxRecDepth 16384

noncomputable section

namespace Cert.KernelIdeal.KernelRun

open Idealize.ShloMosaic Idealize.ShloMosaic.TcCoe Idealize.ShloMosaic.ValueIdx Idealize.SL.Sem Idealize.ShloMosaic.StableHlo
open Cert.KernelIdeal Cert.KernelIdeal.Gen Cert.KernelIdeal.ArrayValue Cert.Adapter
open Idealize.ShloMosaic.Pipeline (Dat)

variable (m : (ℓ : Loc nD τ sig) → Buf (Elt Ideal) ℓ) (ρ : Dev nD → PrngReg)

/-! ## The arrays the region finds are the arguments, reshaped -/

theorem aX_eq (c : Dev nD) :
    aX m c = shapeCast S32768x1024 (m ((c : Thread nD τ).loc main_arg0)) shapeCasts_S8x4096x1024_S32768x1024 := by
  show StableHlo.after hostOps0 (fun b => m (c, b)) (Proc.devRef .tc main_v0) = _
  after_results; rfl
theorem aG_eq (c : Dev nD) : aG m c = shapeCast S1x1024 (m ((c : Thread nD τ).loc main_arg1)) shapeCasts_S1024_S1x1024 := by
  show StableHlo.after hostOps0 (fun b => m (c, b)) (Proc.devRef .tc main_v1) = _
  after_results; rfl
theorem aB_eq (c : Dev nD) : aB m c = shapeCast S1x1024 (m ((c : Thread nD τ).loc main_arg2)) shapeCasts_S1024_S1x1024 := by
  show StableHlo.after hostOps0 (fun b => m (c, b)) (Proc.devRef .tc main_v2) = _
  after_results; rfl
theorem aBd_eq (c : Dev nD) : aBd m c = shapeCast S1x256 (m ((c : Thread nD τ).loc main_arg4)) shapeCasts_S256_S1x256 := by
  show StableHlo.after hostOps0 (fun b => m (c, b)) (Proc.devRef .tc main_v3) = _
  after_results; rfl
theorem aBu_eq (c : Dev nD) : aBu m c = shapeCast S1x1024 (m ((c : Thread nD τ).loc main_arg6)) shapeCasts_S1024_S1x1024 := by
  show StableHlo.after hostOps0 (fun b => m (c, b)) (Proc.devRef .tc main_v4) = _
  after_results; rfl
theorem aWd_eq (c : Dev nD) : aWd m c = (m ((c : Thread nD τ).loc main_arg3)) := V_main_arg3 m c
theorem aWu_eq (c : Dev nD) : aWu m c = (m ((c : Thread nD τ).loc main_arg5)) := V_main_arg5 m c

/-- Row 4096·b + s of the adapter on the flattened activations is row (b, s) of the adapter on the batch. -/
theorem whole_apply (c : Dev nD) (b : Fin 8) (s : Fin 4096) (q : Fin 1024) (r : Fin 32768) (hr : r.val = b.val * 4096 + s.val) :
    whole m c (ix2 r q) = batch (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 b s q) := by
  have hX : (fun k : Fin 1024 => aX m c (ix2 r k)) = fun k => (m ((c : Thread nD τ).loc main_arg0)) (ix3 b s k) := funext fun k => by
    rw [aX_eq]
    exact shapeCast_apply _ _ _ _ (by
      show (S8x4096x1024.rowMajor (ix3 b s k)).val = (S32768x1024.rowMajor (ix2 r k)).val
      rw [Shape.rowMajor_val_three, Shape.rowMajor_val_two]
      show (b.val * 4096 + s.val) * 1024 + k.val = r.val * 1024 + k.val
      omega)
  have hG : (fun k : Fin 1024 => aG m c (ix2 (0 : Fin 1) k)) = fun k => (m ((c : Thread nD τ).loc main_arg1)) (ix1 k) := funext fun k => by
    rw [aG_eq]; exact shapeCast_a_1a_apply _ _ 0 k
  have hB : (fun k : Fin 1024 => aB m c (ix2 (0 : Fin 1) k)) = fun k => (m ((c : Thread nD τ).loc main_arg2)) (ix1 k) := funext fun k => by
    rw [aB_eq]; exact shapeCast_a_1a_apply _ _ 0 k
  have hBd : (fun a : Fin 256 => aBd m c (ix2 (0 : Fin 1) a)) = fun a => (m ((c : Thread nD τ).loc main_arg4)) (ix1 a) := funext fun a => by
    rw [aBd_eq]; exact shapeCast_a_1a_apply _ _ 0 a
  have hBu : (fun k : Fin 1024 => aBu m c (ix2 (0 : Fin 1) k)) = fun k => (m ((c : Thread nD τ).loc main_arg6)) (ix1 k) := funext fun k => by
    rw [aBu_eq]; exact shapeCast_a_1a_apply _ _ 0 k
  show rowOut (fun k => aX m c (ix2 r k)) (fun k => aG m c (ix2 (0 : Fin 1) k)) (fun k => aB m c (ix2 (0 : Fin 1) k))
      (fun k a => aWd m c (ix2 k a)) (fun a => aBd m c (ix2 (0 : Fin 1) a)) (fun a q => aWu m c (ix2 a q))
      (fun q => aBu m c (ix2 (0 : Fin 1) q)) q
    = rowOut (fun k => (m ((c : Thread nD τ).loc main_arg0)) (ix3 b s k)) (fun k => (m ((c : Thread nD τ).loc main_arg1)) (ix1 k)) (fun k => (m ((c : Thread nD τ).loc main_arg2)) (ix1 k))
      (fun k a => (m ((c : Thread nD τ).loc main_arg3)) (ix2 k a)) (fun a => (m ((c : Thread nD τ).loc main_arg4)) (ix1 a)) (fun a q => (m ((c : Thread nD τ).loc main_arg5)) (ix2 a q))
      (fun q => (m ((c : Thread nD τ).loc main_arg6)) (ix1 q)) q
  rw [hX, hG, hB, hBd, hBu, aWd_eq, aWu_eq]

/-! ## The reshape after the region -/

theorem tail_eq (c : Dev nD) :
    Pipeline.afterTail₀ cfgs (dats m) 0 (V0 m) [hostOps1] c main_v6
      = shapeCast S8x4096x1024 (whole m c) shapeCasts_S32768x1024_S8x4096x1024 := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v5)
      = whole m c :=
    (Pipeline.withArrays_arr spec0 launch0.win.arr_inj c (V0 m c) (fun w => (dats m 0 c).arrAt w cfg0.N) 7).trans (final m c)
  rw [hw]
  rfl

/-- Unflattened, the adapter on all 32768 rows is the adapter on the batch: (b, s, q) sits at row-major position
    (4096·b + s)·1024 + q in both shapes. -/
theorem result_eq (c : Dev nD) :
    shapeCast S8x4096x1024 (whole m c) shapeCasts_S32768x1024_S8x4096x1024 = batch (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  obtain ⟨b, s, q, rfl⟩ : ∃ (b : Fin 8) (s : Fin 4096) (q : Fin 1024), i = ix3 b s q := ⟨i 0, i 1, i 2, eq_ix3 i⟩
  have hb : b.val < 8 := b.isLt
  have hs : s.val < 4096 := s.isLt
  refine (shapeCast_apply (whole m c) shapeCasts_S32768x1024_S8x4096x1024 (ix3 b s q)
    (ix2 (⟨b.val * 4096 + s.val, by omega⟩ : Fin 32768) q) (by
      show (S32768x1024.rowMajor (ix2 (⟨b.val * 4096 + s.val, by omega⟩ : Fin 32768) q)).val
        = (S8x4096x1024.rowMajor (ix3 b s q)).val
      rw [Shape.rowMajor_val_two, Shape.rowMajor_val_three]
      rfl)).trans ?_
  exact whole_apply m c b s q _ rfl

/-! ## The run -/

/-- Every weakly fair execution of the kernel program terminates with its result at the adapter on the batch of its
    arguments, the arguments unchanged: the frame run, with the output array named by `final`, the tail read by
    `tail_eq`. -/
theorem run : θ_run defs (onTc (τ := τ) (main (F := Ideal))) ⟨m, fun _ => 0, ρ⟩ (fun r => ∀ c : Dev nD,
      r.2.mem ((c.tc : Thread nD τ).loc main_v6) = batch (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨((h c).2 main_v6 (Pipeline.mem_restRefs_of main_v6 (by decide) (by decide))).trans ((tail_eq m c).trans (result_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c)⟩)
    (run_main m ρ)

end Cert.KernelIdeal.KernelRun

end
-- ==== Proof.RefValue.lean ====
/-
  The reference, read entry by entry.

  The reference works on the unflattened [8, 4096, 1024] activations. At (b, s, ·) every stage depends on the row
  (b, s, ·) only: the two reductions over the last axis are the sums over that row's 1024 entries, the two
  contractions are the sums over their contracted index, and every broadcast reads the one value it repeats. Stage by
  stage these are the row's mean, its variance, the normalised row, the projection down, the GELU factor and the
  output of `Cert.Adapter`; the only difference in form is the cube, written (d · d) · d here.
-/
import proofs.«143193_j35880156791633_1_alg».proof.Proof.Gen.ReferenceIdeal.Read
import proofs.«143193_j35880156791633_1_alg».proof.Proof.RowSpec

noncomputable section

namespace Cert.ReferenceIdeal.RefValue

open Idealize.ShloMosaic Idealize.ShloMosaic.ValueIdx Cert.ReferenceIdeal Cert.ReferenceIdeal.Gen Cert.ReferenceIdeal.Read
open Cert.Adapter

/-! ## The index maps of the layout operations, at coordinates -/

theorem col4 (b : Fin 8) (s : Fin 4096) (k : Fin 1024) : idx_main_v4 (ix3 b s k) = ix3 b s (0 : Fin 1) :=
  funext fun a => Fin.ext (by match a with | ⟨0, _⟩ => rfl | ⟨1, _⟩ => rfl | ⟨2, _⟩ => rfl)
theorem col11 (b : Fin 8) (s : Fin 4096) (k : Fin 1024) : idx_main_v11 (ix3 b s k) = ix3 b s (0 : Fin 1) :=
  funext fun a => Fin.ext (by match a with | ⟨0, _⟩ => rfl | ⟨1, _⟩ => rfl | ⟨2, _⟩ => rfl)
theorem col16 (b : Fin 8) (s : Fin 4096) (k : Fin 1024) : idx_main_v16 (ix3 b s k) = ix3 b s (0 : Fin 1) :=
  funext fun a => Fin.ext (by match a with | ⟨0, _⟩ => rfl | ⟨1, _⟩ => rfl | ⟨2, _⟩ => rfl)
theorem drop1 (b : Fin 8) (s : Fin 4096) (u : Fin 1) : idx_main_v1 (ix3 b s u) = ix2 b s :=
  funext fun a => Fin.ext (by match a with | ⟨0, _⟩ => rfl | ⟨1, _⟩ => rfl)
theorem drop8 (b : Fin 8) (s : Fin 4096) (u : Fin 1) : idx_main_v8 (ix3 b s u) = ix2 b s :=
  funext fun a => Fin.ext (by match a with | ⟨0, _⟩ => rfl | ⟨1, _⟩ => rfl)
theorem ins0 (b : Fin 8) (s : Fin 4096) (k : Fin 1024) : idx_main_v0 (ix2 b s) k = ix3 b s k :=
  funext fun a => Fin.ext (by match a with | ⟨0, _⟩ => rfl | ⟨1, _⟩ => rfl | ⟨2, _⟩ => rfl)
theorem ins7 (b : Fin 8) (s : Fin 4096) (k : Fin 1024) : idx_main_v7 (ix2 b s) k = ix3 b s k :=
  funext fun a => Fin.ext (by match a with | ⟨0, _⟩ => rfl | ⟨1, _⟩ => rfl | ⟨2, _⟩ => rfl)
theorem par19 (b : Fin 8) (s : Fin 4096) (k : Fin 1024) : idx_main_v19 (ix3 b s k) = ix3 (0 : Fin 1) (0 : Fin 1) k :=
  funext fun a => Fin.ext (by match a with | ⟨0, _⟩ => rfl | ⟨1, _⟩ => rfl | ⟨2, _⟩ => rfl)
theorem par22 (b : Fin 8) (s : Fin 4096) (k : Fin 1024) : idx_main_v22 (ix3 b s k) = ix3 (0 : Fin 1) (0 : Fin 1) k :=
  funext fun a => Fin.ext (by match a with | ⟨0, _⟩ => rfl | ⟨1, _⟩ => rfl | ⟨2, _⟩ => rfl)
theorem par43 (b : Fin 8) (s : Fin 4096) (k : Fin 1024) : idx_main_v43 (ix3 b s k) = ix3 (0 : Fin 1) (0 : Fin 1) k :=
  funext fun a => Fin.ext (by match a with | ⟨0, _⟩ => rfl | ⟨1, _⟩ => rfl | ⟨2, _⟩ => rfl)
theorem par26 (b : Fin 8) (s : Fin 4096) (k : Fin 256) : idx_main_v26 (ix3 b s k) = ix3 (0 : Fin 1) (0 : Fin 1) k :=
  funext fun a => Fin.ext (by match a with | ⟨0, _⟩ => rfl | ⟨1, _⟩ => rfl | ⟨2, _⟩ => rfl)
theorem vec18 (u v : Fin 1) (k : Fin 1024) : idx_main_v18 (ix3 u v k) = ix1 k := funext fun a => Fin.ext (by match a with | ⟨0, _⟩ => rfl)
theorem vec21 (u v : Fin 1) (k : Fin 1024) : idx_main_v21 (ix3 u v k) = ix1 k := funext fun a => Fin.ext (by match a with | ⟨0, _⟩ => rfl)
theorem vec42 (u v : Fin 1) (k : Fin 1024) : idx_main_v42 (ix3 u v k) = ix1 k := funext fun a => Fin.ext (by match a with | ⟨0, _⟩ => rfl)
theorem vec25 (u v : Fin 1) (k : Fin 256) : idx_main_v25 (ix3 u v k) = ix1 k := funext fun a => Fin.ext (by match a with | ⟨0, _⟩ => rfl)
theorem lhs24 (b : Fin 8) (s : Fin 4096) (a' : Fin 256) (k : Fin 1024) : lidx_main_v24 (ix3 b s a') k = ix3 b s k :=
  funext fun a => Fin.ext (by match a with | ⟨0, _⟩ => rfl | ⟨1, _⟩ => rfl | ⟨2, _⟩ => rfl)
theorem rhs24 (b : Fin 8) (s : Fin 4096) (a' : Fin 256) (k : Fin 1024) : ridx_main_v24 (ix3 b s a') k = ix2 k a' :=
  funext fun a => Fin.ext (by match a with | ⟨0, _⟩ => rfl | ⟨1, _⟩ => rfl)
theorem lhs41 (b : Fin 8) (s : Fin 4096) (q : Fin 1024) (k : Fin 256) : lidx_main_v41 (ix3 b s q) k = ix3 b s k :=
  funext fun a => Fin.ext (by match a with | ⟨0, _⟩ => rfl | ⟨1, _⟩ => rfl | ⟨2, _⟩ => rfl)
theorem rhs41 (b : Fin 8) (s : Fin 4096) (q : Fin 1024) (k : Fin 256) : ridx_main_v41 (ix3 b s q) k = ix2 k q :=
  funext fun a => Fin.ext (by match a with | ⟨0, _⟩ => rfl | ⟨1, _⟩ => rfl)

/-! ## The stages -/

/-- %3 at (b, s, ·): the mean of row (b, s). -/
theorem mean_eq (x0 : FVec Ideal S8x4096x1024 .f32) (b : Fin 8) (s : Fin 4096) (u : Fin 1) :
    val_main_v3 (F := Ideal) x0 (ix3 b s u) = mean (fun k => x0 (ix3 b s k)) := by
  simp only [val_main_v3_apply, val_main_v1_apply, val_main_v0_apply, val_main_v2_apply, val_main_cst_apply,
    val_main_cst_0_apply, drop1, ins0, Ideal.hostDivf_def, Ideal.ofBits_def, Ideal.ofBits_zero_f32, zero_add, mean]

/-- %10 at (b, s, ·): the variance of row (b, s). -/
theorem var_eq (x0 : FVec Ideal S8x4096x1024 .f32) (b : Fin 8) (s : Fin 4096) (u : Fin 1) :
    val_main_v10 (F := Ideal) x0 (ix3 b s u) = var (fun k => x0 (ix3 b s k)) := by
  simp only [val_main_v10_apply, val_main_v8_apply, val_main_v7_apply, val_main_v9_apply, val_main_cst_1_apply,
    val_main_cst_2_apply, val_main_v6_apply, val_main_v5_apply, val_main_v4_apply, drop8, ins7, col4, mean_eq,
    Ideal.hostDivf_def, Ideal.ofBits_def, Ideal.ofBits_zero_f32, zero_add, Ideal.mulf_def, Ideal.subf_def, var]

/-- %23 at (b, s, k): entry k of the normalised row. -/
theorem normed_eq (x0 : FVec Ideal S8x4096x1024 .f32) (x1 x2 : FVec Ideal S1024 .f32) (b : Fin 8) (s : Fin 4096) (k : Fin 1024) :
    val_main_v23 (F := Ideal) x0 x1 x2 (ix3 b s k) = normed (fun k => x0 (ix3 b s k)) (fun k => x1 (ix1 k)) (fun k => x2 (ix1 k)) k := by
  simp only [val_main_v23_apply, val_main_v20_apply, val_main_v22_apply, val_main_v21_apply, val_main_v17_apply,
    val_main_v19_apply, val_main_v18_apply, val_main_v12_apply, val_main_v11_apply, val_main_v16_apply,
    val_main_v15_apply, val_main_v14_apply, val_main_v13_apply, val_main_cst_3_apply, col11, col16, par19, par22,
    vec18, vec21, mean_eq, var_eq, Ideal.hostUnary_rsqrt_def, Ideal.ofBits_def, Ideal.mulf_def, Ideal.subf_def,
    Ideal.addf_def, normed]

/-- %27 at (b, s, a): entry a of the projection down of row (b, s). -/
theorem down_eq (x0 : FVec Ideal S8x4096x1024 .f32) (x1 x2 : FVec Ideal S1024 .f32) (x3 : FVec Ideal S1024x256 .f32) (x4 : FVec Ideal S256 .f32) (b : Fin 8) (s : Fin 4096) (a : Fin 256) :
    val_main_v27 (F := Ideal) x0 x1 x2 x3 x4 (ix3 b s a) = down (fun k => x0 (ix3 b s k)) (fun k => x1 (ix1 k)) (fun k => x2 (ix1 k)) (fun k a => x3 (ix2 k a)) (fun a => x4 (ix1 a)) a := by
  simp only [val_main_v27_apply, val_main_v24_apply, val_main_v26_apply, val_main_v25_apply, lhs24, rhs24, par26, vec25,
    normed_eq, Ideal.addf_def, down]

/-- %40 at (b, s, a): the GELU factor of that entry. The cube arrives as (d · d) · d. -/
theorem gelu_eq (x0 : FVec Ideal S8x4096x1024 .f32) (x1 x2 : FVec Ideal S1024 .f32) (x3 : FVec Ideal S1024x256 .f32) (x4 : FVec Ideal S256 .f32) (b : Fin 8) (s : Fin 4096) (a : Fin 256) :
    val_main_v40 (F := Ideal) x0 x1 x2 x3 x4 (ix3 b s a) = gelu (down (fun k => x0 (ix3 b s k)) (fun k => x1 (ix1 k)) (fun k => x2 (ix1 k)) (fun k a => x3 (ix2 k a)) (fun a => x4 (ix1 a)) a) := by
  simp only [val_main_v40_apply, val_main_v29_apply, val_main_v28_apply, val_main_cst_4_apply, val_main_v39_apply,
    val_main_v38_apply, val_main_cst_7_apply, val_main_v37_apply, val_main_v36_apply, val_main_v35_apply,
    val_main_cst_6_apply, val_main_v34_apply, val_main_v33_apply, val_main_v32_apply, val_main_cst_5_apply,
    val_main_v31_apply, val_main_v30_apply, down_eq, Ideal.hostUnary_tanh_def, Ideal.ofBits_def, Ideal.mulf_def,
    Ideal.addf_def]
  exact gelu_cube_left _

/-- THE REFERENCE'S RESULT is the adapter on the batch. -/
theorem result_eq (x0 : FVec Ideal S8x4096x1024 .f32) (x1 x2 : FVec Ideal S1024 .f32) (x3 : FVec Ideal S1024x256 .f32) (x4 : FVec Ideal S256 .f32) (x5 : FVec Ideal S256x1024 .f32) (x6 : FVec Ideal S1024 .f32) :
    val_main_v45 (F := Ideal) x0 x1 x2 x3 x4 x5 x6 = batch x0 x1 x2 x3 x4 x5 x6 := by
  funext i
  obtain ⟨b, s, q, rfl⟩ : ∃ (b : Fin 8) (s : Fin 4096) (q : Fin 1024), i = ix3 b s q := ⟨i 0, i 1, i 2, eq_ix3 i⟩
  simp only [val_main_v45_apply, val_main_v44_apply, val_main_v41_apply, val_main_v43_apply, val_main_v42_apply,
    lhs41, rhs41, par43, vec42, gelu_eq, Ideal.addf_def]
  rfl

end Cert.ReferenceIdeal.RefValue

end
-- ==== Proof.lean ====
/-
  The adapter kernel against its reference, over the extended reals.

  Both programs map a batch of 8 × 4096 rows of 1024 entries through the same function of ONE row
  (`Cert.Adapter.rowOut`): layer normalisation (the row's mean and variance are sums over its 1024 entries), a
  projection down to 256 entries, the tanh form of GELU, a projection back up, and the row itself added at the end.

  * The kernel flattens the batch to 32768 rows and visits them 512 at a time. Its body stores, at (p, q) of a block,
    `rowOut` of row p at entry q (Proof/BodyValue.lean); the 64 blocks tile the output, which ends holding the adapter
    on all 32768 rows (Proof/ArrayValue.lean); the reshapes around the region keep every number at its row-major
    position, so the result at (b, s, ·) is `rowOut` of row (b, s) (Proof/KernelRun.lean).
  * The reference works on the batch as it is; stage by stage its value at (b, s, ·) is the mean, the variance, the
    normalised row, the projection down, the GELU factor and `rowOut` of row (b, s) (Proof/RefValue.lean).

  The two differ only in how sums are grouped and in the cube inside GELU, d · (d · d) against (d · d) · d, which
  agree because multiplication of extended reals commutes; no step needs the inputs to be finite. The format changes
  to bf16 before the matrix products are identities on the extended reals, and every constant is the same 32-bit
  pattern on both sides, never evaluated.

  The three frames: the two kernel programs' are the generated frame certificates; the reference's is its run with the
  result dropped. Nothing was rewritten when the kernel was idealised, so `preserves` has nothing to state.
-/
import proofs.«143193_j35880156791633_1_alg».proof.Defs
import proofs.«143193_j35880156791633_1_alg».proof.Proof.Gen.Kernel
import proofs.«143193_j35880156791633_1_alg».proof.Proof.Gen.Kernel.Skeleton
import proofs.«143193_j35880156791633_1_alg».proof.Proof.Gen.Kernel.Launch
import proofs.«143193_j35880156791633_1_alg».proof.Proof.Gen.Kernel.Points
import proofs.«143193_j35880156791633_1_alg».proof.Proof.Gen.Kernel.Frame
import proofs.«143193_j35880156791633_1_alg».proof.Proof.Gen.KernelIdeal
import proofs.«143193_j35880156791633_1_alg».proof.Proof.Gen.KernelIdeal.Skeleton
import proofs.«143193_j35880156791633_1_alg».proof.Proof.Gen.KernelIdeal.Launch
import proofs.«143193_j35880156791633_1_alg».proof.Proof.Gen.KernelIdeal.Points
import proofs.«143193_j35880156791633_1_alg».proof.Proof.Gen.KernelIdeal.Frame
import proofs.«143193_j35880156791633_1_alg».proof.Proof.Gen.ReferenceIdeal
import proofs.«143193_j35880156791633_1_alg».proof.Proof.Gen.Pre_finite_inputs
import proofs.«143193_j35880156791633_1_alg».proof.Proof.Gen.ReferenceIdeal.Run
import proofs.«143193_j35880156791633_1_alg».proof.Proof.Gen.ReferenceIdeal.Read
import proofs.«143193_j35880156791633_1_alg».proof.Proof.KernelRun
import proofs.«143193_j35880156791633_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with their result at the adapter on the batch of the arguments; from memories that agree on the
    arguments these are one array. -/
theorem algebraic : Cert.algebraic_KernelIdeal_ReferenceIdeal := by
  intro m ρ m' ρ' _ hagree
  refine ⟨fun c => Cert.Adapter.batch
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, Cert.ReferenceIdeal.RefValue.result_eq]
  obtain ⟨h0, h1, h2, h3, h4, h5, h6⟩ := hagree c
  rw [h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
